-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S8192x256 : Shape := ⟨2, ![8192, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4096x256 .f32) (main_arg1 : FVec F S8192x256 .f32) (main_arg2 : FVec F S8192x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S4096x256 : Shape := ⟨2, ![4096, 256]⟩
abbrev S8192x256 : Shape := ⟨2, ![8192, 256]⟩
abbrev S256x256 : Shape := ⟨2, ![256, 256]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S256x8192 : Shape := ⟨2, ![256, 8192]⟩

abbrev nBuf : Space → Nat
  | .hbm => 4
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S8192x256, .f32⟩
  | .hbm, ⟨3, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S8192x256, .f32⟩
  | .local _ .vmem, ⟨4, _⟩ => ⟨S256x256, .f32⟩
  | .local _ .vmem, ⟨5, _⟩ => ⟨S256x256, .f32⟩
  | .local _ .vmem, ⟨6, _⟩ => ⟨S8192x256, .bf16⟩
  | .local _ .vmem, ⟨7, _⟩ => ⟨S8192x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  broadcasts_S8192x1_S8192x256 : S8192x1.Broadcasts S8192x256
  bitsLt_bf16_f32 : FTy.bits .bf16 < FTy.bits .f32
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  broadcasts_S256x1_S256x256 : S256x1.Broadcasts S256x256
  reduces_S256x8192_S256 : S256x8192.Reduces [1] S256
  dot_S256x256_S8192x256_S256x8192_1_1_0_0_n_n_wf : DotDims.WF S256x256 S8192x256 S256x8192 [1] [1] [0] [0] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .f32 = 32 ∨ (Rect.block (s := S8192x256) S8192x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S256x8192 : Shape := ⟨2, ![256, 8192]⟩
abbrev S4096x8192 : Shape := ⟨2, ![4096, 8192]⟩

abbrev nBuf : Space → Nat
  | .hbm => 40
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S8192x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S256x8192, .f32⟩
  | .hbm, ⟨24, _⟩ => ⟨S4096x8192, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x8192, .f32⟩
  | .hbm, ⟨32, _⟩ => ⟨S4096x8192, .f32⟩
  | .hbm, ⟨33, _⟩ => ⟨S4096x8192, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x8192, .f32⟩
  | .hbm, ⟨38, _⟩ => ⟨S4096x8192, .f32⟩
  | .hbm, ⟨39, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.Attn.lean ====
/-
  The two arithmetic forms this certificate joins, over abstract finite index types: `ι` indexes a row's
  hidden coordinates, `κ` the memory slots. A query row `q`, the key rows `k j` and one column `w` of the
  stored values give one output entry.

  The kernel's form normalises by multiplying with a reciprocal, `x · (1 / (‖x‖ + ε))`, exponentiates the
  similarities directly and divides the weighted sum by the plain sum of exponentials once, at the end.
  The reference's form normalises by dividing, `x / (‖x‖ + ε)`, subtracts the row maximum of the
  similarities before exponentiating, divides every exponential by their sum, and only then takes the
  weighted sum. The constants (one, ε, zero, −∞) stay parameters here: each program writes them as a
  bit pattern, and the same pattern is used on both sides.
-/
import Idealize.ShloMosaic.PureOps.Ideal
import Idealize.ShloMosaic.PureOps.Ideal.Laws

noncomputable section

namespace Cert.Attn

open Idealize.ShloMosaic

variable {ι κ : Type} [Fintype ι] [Fintype κ]

/-- The kernel's similarity of the query row with slot `j`: the inner product of the two rows, each scaled
    by the reciprocal of its Euclidean norm plus `eps`. -/
def simK (one eps : EReal) (q : ι → EReal) (k : κ → ι → EReal) (j : κ) : EReal :=
  ∑ d, (q d * Ideal.div one (Ideal.sqrt (∑ d', q d' * q d') + eps))
        * (k j d * Ideal.div one (Ideal.sqrt (∑ d', k j d' * k j d') + eps))

/-- The kernel's output entry: the exponential-weighted sum of the column `w`, divided by the sum of the weights. -/
def outK (one eps : EReal) (q : ι → EReal) (k : κ → ι → EReal) (w : κ → EReal) : EReal :=
  Ideal.div (∑ j, Ideal.exp (simK one eps q k j) * w j) (∑ j, Ideal.exp (simK one eps q k j))

/-- The reference's similarity: the inner product of the two rows, each divided by its Euclidean norm plus
    `eps`; the sums of squares start from `zero`. -/
def simR (zero eps : EReal) (q : ι → EReal) (k : κ → ι → EReal) (j : κ) : EReal :=
  ∑ d, Ideal.div (q d) (Ideal.sqrt (zero + ∑ d', q d' * q d') + eps)
        * Ideal.div (k j d) (Ideal.sqrt (zero + ∑ d', k j d' * k j d') + eps)

/-- The row maximum the reference subtracts: the fold of `max` from `ninf` over the similarities, once more
    against `ninf`. -/
def maxR (zero eps ninf : EReal) (q : ι → EReal) (k : κ → ι → EReal) : EReal :=
  max ninf (Finset.univ.fold max ninf (simR zero eps q k))

/-- The reference's output entry: the softmax weights (shifted by the row maximum, each divided by their
    sum from `zero`) times the column `w`, summed. -/
def outR (zero eps ninf : EReal) (q : ι → EReal) (k : κ → ι → EReal) (w : κ → EReal) : EReal :=
  ∑ j, Ideal.div (Ideal.exp (simR zero eps q k j - maxR zero eps ninf q k))
          (zero + ∑ l, Ideal.exp (simR zero eps q k l - maxR zero eps ninf q k)) * w j

end Cert.Attn

end
-- ==== Proof.SoftmaxLaw.lean ====
/-
  The softmax law that joins the certificate's two arithmetic forms at real inputs.

  Every input is a real number, so every intermediate value is the image of a real number: a sum of squares
  is not negative, its square root is a real that is not negative, and adding a positive ε makes a positive
  real, so both the reciprocal 1 / (‖x‖ + ε) and the quotient x / (‖x‖ + ε) are real and x · (1 / n) = x / n.
  The two similarities therefore agree, s_j say. The row maximum over a nonempty finite family of reals is a
  real m, exp (s_j − m) = exp s_j / exp m, the common factor 1 / exp m cancels between each shifted
  exponential and their sum, and so
      Σ_j (exp (s_j − m) / Σ_l exp (s_l − m)) · w_j  =  (Σ_j exp s_j · w_j) / Σ_l exp s_l.
  The two bit patterns the programs write are evaluated first: ε is a positive real, and the mask's fill
  value is −∞.
-/
import proofs.«108942_g75935021794080_cont_9to1_m_45_6_alg».proof.Proof.Attn
import Mathlib.Data.EReal.Basic
import Mathlib.Data.Finset.Fold
import Mathlib.Analysis.Complex.Exponential
import Mathlib.Analysis.SpecialFunctions.Sqrt

noncomputable section

namespace Cert.Attn

open Idealize.ShloMosaic

/-! ### The two constants -/

/-- The pattern of ε: sign 0, exponent field 100, significand field 0x2BCC77; a positive real near 10⁻⁸. -/
theorem eps_pos : ∃ e : ℝ, 0 < e ∧ Ideal.ofBits .f32 0x322BCC77#32 = (e : EReal) := by
  refine ⟨((2 ^ 23 + 0x2BCC77 : ℕ) : ℝ) * (2 : ℝ) ^ ((100 : ℤ) - 127 - 23), by positivity, ?_⟩
  simp [Ideal.ofBits, Ideal.ieee, -EReal.coe_mul]

/-- The pattern with the sign set, an all-ones exponent and a zero significand is −∞. -/
theorem ninf_eq : Ideal.ofBits .f32 0xFF800000#32 = (⊥ : EReal) := by
  simp [Ideal.ofBits, Ideal.ieee]

/-! ### Images of reals stay images of reals -/

/-- A finite sum of images of reals is the image of the real sum. -/
theorem coe_sum {α : Type} (s : Finset α) (f : α → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum of squares of reals, as an extended real, is the image of the real sum of squares. -/
theorem coe_sumsq {α : Type} [Fintype α] (x : α → ℝ) :
    (∑ d, (x d : EReal) * (x d : EReal)) = ((∑ d, x d * x d : ℝ) : EReal) := by
  rw [← coe_sum]; exact Finset.sum_congr rfl fun d _ => (EReal.coe_mul _ _).symm

/-- The square root of the image of a real that is not negative is the image of the real square root. -/
theorem sqrt_coe_nonneg {r : ℝ} (h : 0 ≤ r) : Ideal.sqrt (r : EReal) = (Real.sqrt r : EReal) := by
  rw [Ideal.sqrt_coe, if_neg (not_lt.mpr h)]

/-- The quotient of the images of two reals, the divisor not zero, is the image of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The Euclidean norm of a real row plus ε, a positive real. -/
def nrm {α : Type} [Fintype α] (e : ℝ) (x : α → ℝ) : ℝ := Real.sqrt (∑ d, x d * x d) + e

theorem nrm_pos {α : Type} [Fintype α] {e : ℝ} (he : 0 < e) (x : α → ℝ) : 0 < nrm e x :=
  add_pos_of_nonneg_of_pos (Real.sqrt_nonneg _) he

/-- The norm plus ε as the programs compute it is the image of the real one. -/
theorem nrm_eq {α : Type} [Fintype α] (e : ℝ) (x : α → ℝ) :
    Ideal.sqrt (∑ d, (x d : EReal) * (x d : EReal)) + (e : EReal) = ((nrm e x : ℝ) : EReal) := by
  rw [coe_sumsq, sqrt_coe_nonneg (Finset.sum_nonneg fun d _ => mul_self_nonneg (x d)), ← EReal.coe_add, nrm]

/-! ### The similarities -/

section Real

variable {ι κ : Type} [Fintype ι] [Fintype κ]

/-- The real similarity of the query row with slot j. -/
def simReal (e : ℝ) (q : ι → ℝ) (k : κ → ι → ℝ) (j : κ) : ℝ :=
  ∑ d, (q d / nrm e q) * (k j d / nrm e (k j))

/-- The kernel's similarity, multiplying by reciprocals, is the image of the real similarity. -/
theorem simK_coe {e : ℝ} (he : 0 < e) (q : ι → ℝ) (k : κ → ι → ℝ) (j : κ) :
    simK 1 (e : EReal) (fun d => (q d : EReal)) (fun j d => (k j d : EReal)) j = ((simReal e q k j : ℝ) : EReal) := by
  unfold simK simReal
  rw [← coe_sum, nrm_eq, nrm_eq]
  refine Finset.sum_congr rfl fun d _ => ?_
  rw [show (1 : EReal) = ((1 : ℝ) : EReal) from rfl, div_coe_coe 1 (nrm_pos he q).ne', div_coe_coe 1 (nrm_pos he (k j)).ne',
    ← EReal.coe_mul, ← EReal.coe_mul, ← EReal.coe_mul, mul_one_div, mul_one_div]

/-- The reference's similarity, dividing, is the image of the same real similarity. -/
theorem simR_coe {e : ℝ} (he : 0 < e) (q : ι → ℝ) (k : κ → ι → ℝ) (j : κ) :
    simR 0 (e : EReal) (fun d => (q d : EReal)) (fun j d => (k j d : EReal)) j = ((simReal e q k j : ℝ) : EReal) := by
  unfold simR simReal
  rw [← coe_sum, zero_add, zero_add, nrm_eq, nrm_eq]
  refine Finset.sum_congr rfl fun d _ => ?_
  rw [div_coe_coe _ (nrm_pos he q).ne', div_coe_coe _ (nrm_pos he (k j)).ne', ← EReal.coe_mul]

/-! ### The row maximum -/

/-- The fold of max from −∞ over a nonempty finite family of reals, once more against −∞, is a real. -/
theorem max_fold_real [Nonempty κ] (s : κ → ℝ) :
    ∃ m : ℝ, max (⊥ : EReal) (Finset.univ.fold max (⊥ : EReal) (fun j => (s j : EReal))) = (m : EReal) := by
  rw [max_eq_right bot_le]
  refine ⟨(Finset.univ.fold max (⊥ : EReal) (fun j => (s j : EReal))).toReal, (EReal.coe_toReal ?_ ?_).symm⟩
  · exact ne_of_lt ((Finset.fold_max_lt _).mpr ⟨bot_lt_top, fun j _ => EReal.coe_lt_top _⟩)
  · obtain ⟨j⟩ := (inferInstance : Nonempty κ)
    exact ne_of_gt ((Finset.lt_fold_max _).mpr (Or.inr ⟨j, Finset.mem_univ j, EReal.bot_lt_coe _⟩))

/-! ### The softmax identity in the reals -/

/-- Shifting every exponent by the same real m cancels between each exponential and their sum. -/
theorem real_softmax [Nonempty κ] (s w : κ → ℝ) (m : ℝ) :
    (∑ j, Real.exp (s j) * w j) / (∑ j, Real.exp (s j))
      = ∑ j, Real.exp (s j - m) / (∑ l, Real.exp (s l - m)) * w j := by
  have hE : (0 : ℝ) < ∑ j, Real.exp (s j) := Finset.sum_pos (fun j _ => Real.exp_pos _) Finset.univ_nonempty
  have hm : Real.exp m ≠ 0 := (Real.exp_pos m).ne'
  have h1 : ∀ j, Real.exp (s j - m) = Real.exp (s j) / Real.exp m := fun j => Real.exp_sub _ _
  simp_rw [h1, ← Finset.sum_div]
  rw [Finset.sum_div]
  refine Finset.sum_congr rfl fun j _ => ?_
  field_simp

end Real

/-! ### The two output entries agree -/

theorem outK_eq_outR {ι κ : Type} [Fintype ι] [Fintype κ] [Nonempty κ] {one eps zero ninf : EReal} {e : ℝ} (he : 0 < e)
    (heps : eps = (e : EReal)) (hone : one = 1) (hzero : zero = 0) (hninf : ninf = ⊥)
    (q : ι → ℝ) (k : κ → ι → ℝ) (w : κ → ℝ) :
    outK one eps (fun d => (q d : EReal)) (fun j d => (k j d : EReal)) (fun j => (w j : EReal))
      = outR zero eps ninf (fun d => (q d : EReal)) (fun j d => (k j d : EReal)) (fun j => (w j : EReal)) := by
  subst heps hone hzero hninf
  obtain ⟨m, hm⟩ := max_fold_real (simReal e q k)
  have hmax : maxR 0 (e : EReal) ⊥ (fun d => (q d : EReal)) (fun j d => (k j d : EReal)) = (m : EReal) := by
    unfold maxR
    rw [show simR 0 (e : EReal) (fun d => (q d : EReal)) (fun j d => (k j d : EReal))
          = fun j => ((simReal e q k j : ℝ) : EReal) from funext fun j => simR_coe he q k j]
    exact hm
  have hE : (0 : ℝ) < ∑ j, Real.exp (simReal e q k j) :=
    Finset.sum_pos (fun j _ => Real.exp_pos _) Finset.univ_nonempty
  have hEm : (0 : ℝ) < ∑ j, Real.exp (simReal e q k j - m) :=
    Finset.sum_pos (fun j _ => Real.exp_pos _) Finset.univ_nonempty
  unfold outK outR
  rw [hmax]
  simp_rw [simK_coe he, simR_coe he, ← EReal.coe_sub, Ideal.exp_coe, ← EReal.coe_mul, coe_sum, zero_add]
  rw [div_coe_coe _ hE.ne']
  simp_rw [div_coe_coe _ hEm.ne', ← EReal.coe_mul, coe_sum]
  rw [real_softmax (simReal e q k) w m]

end Cert.Attn

end
-- ==== Proof.FiniteInputs.lean ====
/-
  The precondition read back: the predicate is, for each of the three arrays, the conjunction over
  all entries of `|x| < +∞`, and the three conjunctions joined by `and`. Over the extended reals `|x|` is
  `max x (-x)`, which is `⊤` exactly when `x` is `⊤` or `⊥`; so the predicate being one says every entry of
  every array is a real number.
-/
import proofs.«108942_g75935021794080_cont_9to1_m_45_6_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic

/-- The rank-zero shape has one index. -/
instance : Subsingleton Cert.Pre_finite_inputs.S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` lies strictly below `+∞` is a real number: at `⊤`
    and at `⊥` the maximum is `⊤`. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One array's part of the predicate: if the conjunction over all entries of `|x| < +∞` is one, every entry
    is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) (i : s.Idx) :
    ∃ r : ℝ, x i = (r : EReal) :=
  real_of_abs_lt (x i) (Host.reduce_andi_all _ _ hr hu ValueIdx.ix0 e i)

theorem real_of_pre (a0 : FVec Ideal Cert.Pre_finite_inputs.S4096x256 .f32) (a1 a2 : FVec Ideal Cert.Pre_finite_inputs.S8192x256 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all a0 _ _ _ h0', real_of_all a1 _ _ _ h1, real_of_all a2 _ _ _ h2⟩

end Cert.FiniteInputs

end
-- ==== Proof.RefValue.lean ====
/-
  The reference program's result, read at one output entry (p, c), is the arithmetic form `Cert.Attn.outR`:
  each query row and each key row is divided by its Euclidean norm plus ε, the similarities are the inner
  products of the divided rows, the row maximum (folded from −∞, once more against −∞) is subtracted before
  exponentiating, every exponential is divided by the row's sum of exponentials, and the weighted sum with
  one column of the stored values is taken last.

  The stages below follow the program in order: the two norm denominators, the divided rows, the similarity,
  the row maximum, the shifted exponentials, their sum, and the final contraction.
-/
import proofs.«108942_g75935021794080_cont_9to1_m_45_6_alg».proof.Proof.Attn
import proofs.«108942_g75935021794080_cont_9to1_m_45_6_alg».proof.Proof.Gen.ReferenceIdeal.Read
import Idealize.ShloMosaic.PureOps.Reduce

noncomputable section

namespace Cert.RefValue

open Idealize.ShloMosaic Idealize.ShloMosaic.ValueIdx Cert.ReferenceIdeal Cert.ReferenceIdeal.Read

/-- The query row's denominator, the same at every hidden coordinate: the square root of the sum of squares
    (started from zero) plus ε. -/
theorem qden (x0 : (⟨S4096x256, .f32⟩ : BufTy).Contents (Elt Ideal)) (p : Fin 4096) (d : Fin 256) :
    val_main_v3 (F := Ideal) x0 (ix2 p d)
      = Ideal.sqrt (Ideal.ofBits .f32 0x00000000#32 + ∑ d' : Fin 256, x0 (ix2 p d') * x0 (ix2 p d'))
          + Ideal.ofBits .f32 0x322BCC77#32 := by
  rw [val_main_v3_apply, val_main_v2_apply, val_main_v0_apply, val_main_call0_v2_apply, val_main_call0_v1_apply,
    val_main_v1_apply, val_main_cst_apply, val_main_call0_cst_apply]
  have e : ∀ k : Fin 256, idx_main_call0_v1 (idx_main_call0_v2 (idx_main_v3 (ix2 p d))) k = ix2 p k := fun k =>
    funext fun a => Fin.ext (by match a with | ⟨0, _⟩ => rfl | ⟨1, _⟩ => rfl)
  simp only [val_main_call0_v0_apply, e, Ideal.hostUnary_sqrt_def, Ideal.mulf_def, Ideal.addf_def, Ideal.ofBits_def]

/-- The key row's denominator, likewise. -/
theorem kden (x1 : (⟨S8192x256, .f32⟩ : BufTy).Contents (Elt Ideal)) (j : Fin 8192) (d : Fin 256) :
    val_main_v8 (F := Ideal) x1 (ix2 j d)
      = Ideal.sqrt (Ideal.ofBits .f32 0x00000000#32 + ∑ d' : Fin 256, x1 (ix2 j d') * x1 (ix2 j d'))
          + Ideal.ofBits .f32 0x322BCC77#32 := by
  rw [val_main_v8_apply, val_main_v7_apply, val_main_v5_apply, val_main_call1_v2_apply, val_main_call1_v1_apply,
    val_main_v6_apply, val_main_cst_0_apply, val_main_call1_cst_apply]
  have e : ∀ k : Fin 256, idx_main_call1_v1 (idx_main_call1_v2 (idx_main_v8 (ix2 j d))) k = ix2 j k := fun k =>
    funext fun a => Fin.ext (by match a with | ⟨0, _⟩ => rfl | ⟨1, _⟩ => rfl)
  simp only [val_main_call1_v0_apply, e, Ideal.hostUnary_sqrt_def, Ideal.mulf_def, Ideal.addf_def, Ideal.ofBits_def]

/-- The similarity of query row `p` with slot `j`. -/
theorem sim_eq (x0 : (⟨S4096x256, .f32⟩ : BufTy).Contents (Elt Ideal)) (x1 : (⟨S8192x256, .f32⟩ : BufTy).Contents (Elt Ideal))
    (p : Fin 4096) (j : Fin 8192) :
    val_main_v11 (F := Ideal) x0 x1 (ix2 p j)
      = Cert.Attn.simR (Ideal.ofBits .f32 0x00000000#32) (Ideal.ofBits .f32 0x322BCC77#32)
          (fun d : Fin 256 => x0 (ix2 p d)) (fun (j : Fin 8192) (d : Fin 256) => x1 (ix2 j d)) j := by
  rw [val_main_v11_apply]
  unfold Cert.Attn.simR
  refine Finset.sum_congr rfl fun k _ => ?_
  have el : lidx_main_v11 (ix2 p j) k = ix2 p k :=
    funext fun a => Fin.ext (by match a with | ⟨0, _⟩ => rfl | ⟨1, _⟩ => rfl)
  have er : idx_main_v10 (ridx_main_v11 (ix2 p j) k) = ix2 j k :=
    funext fun a => Fin.ext (by match a with | ⟨0, _⟩ => rfl | ⟨1, _⟩ => rfl)
  rw [val_main_v4_apply, val_main_v10_apply, val_main_v9_apply, el, er, qden, kden]
  simp only [Ideal.hostDivf_def]

local notation "zeroC" => Ideal.ofBits FTy.f32 0x00000000#32
local notation "epsC" => Ideal.ofBits FTy.f32 0x322BCC77#32
local notation "ninfC" => Ideal.ofBits FTy.f32 0xFF800000#32

/-- The reduced row index `p` with column `k` put back is (p, k). -/
theorem lift_row (h : S4096x8192.Reduces [1] S4096) (p : Fin 4096) (k : Fin (S4096x8192.size 1)) :
    h.lift (ix1 p) k = ix2 p (⟨k.val, k.isLt⟩ : Fin 8192) := by
  funext c; apply Fin.ext
  match c with
  | ⟨0, _⟩ => rfl
  | ⟨1, _⟩ => rfl

/-- The row maximum the program subtracts: the fold of the maximum from −∞ over the row's similarities, once
    more against −∞. -/
theorem rowmax_eq (x0 : (⟨S4096x256, .f32⟩ : BufTy).Contents (Elt Ideal)) (x1 : (⟨S8192x256, .f32⟩ : BufTy).Contents (Elt Ideal))
    (p : Fin 4096) :
    val_main_v14 (F := Ideal) x0 x1 (ix1 p)
      = Cert.Attn.maxR zeroC epsC ninfC
          (fun d : Fin 256 => x0 (ix2 p d)) (fun (j : Fin 8192) (d : Fin 256) => x1 (ix2 j d)) := by
  have h : S4096x8192.Reduces [1] S4096 := by decide
  rw [val_main_v14_apply, val_main_v13_apply, val_main_cst_2_apply]
  unfold val_main_v12
  rw [Host.reduce_eq_fold_single FloatOps.maximumf _ _ Gen.reducesTo_S4096x8192_S4096_d1 h Gen.h_S_, val_main_cst_1_apply]
  unfold Cert.Attn.maxR
  have hf : (val_main_v11 (F := Ideal) x0 x1 ∘ h.lift (ix1 p))
      = Cert.Attn.simR zeroC epsC (fun d : Fin 256 => x0 (ix2 p d)) (fun (j : Fin 8192) (d : Fin 256) => x1 (ix2 j d)) :=
    funext fun k => (congrArg (val_main_v11 (F := Ideal) x0 x1) (lift_row h p k)).trans (sim_eq x0 x1 p ⟨k.val, k.isLt⟩)
  rw [hf]
  rfl

/-- The shifted exponential at (p, j). -/
theorem exp_eq (x0 : (⟨S4096x256, .f32⟩ : BufTy).Contents (Elt Ideal)) (x1 : (⟨S8192x256, .f32⟩ : BufTy).Contents (Elt Ideal))
    (p : Fin 4096) (j : Fin 8192) :
    val_main_v18 (F := Ideal) x0 x1 (ix2 p j)
      = Ideal.exp (Cert.Attn.simR zeroC epsC (fun d : Fin 256 => x0 (ix2 p d)) (fun (j : Fin 8192) (d : Fin 256) => x1 (ix2 j d)) j
          - Cert.Attn.maxR zeroC epsC ninfC (fun d : Fin 256 => x0 (ix2 p d)) (fun (j : Fin 8192) (d : Fin 256) => x1 (ix2 j d))) := by
  have e : idx_main_v15 (idx_main_v16 (ix2 p j)) = ix1 p :=
    funext fun a => Fin.ext (by match a with | ⟨0, _⟩ => rfl)
  rw [val_main_v18_apply, val_main_v17_apply, val_main_v16_apply, val_main_v15_apply, e, rowmax_eq, sim_eq]
  simp only [Ideal.hostUnary_exp_def, Ideal.subf_def]

/-- The row's sum of shifted exponentials (started from zero), the same at every slot. -/
theorem expsum_eq (x0 : (⟨S4096x256, .f32⟩ : BufTy).Contents (Elt Ideal)) (x1 : (⟨S8192x256, .f32⟩ : BufTy).Contents (Elt Ideal))
    (p : Fin 4096) (j : Fin 8192) :
    val_main_v21 (F := Ideal) x0 x1 (ix2 p j)
      = zeroC + ∑ l : Fin 8192,
          Ideal.exp (Cert.Attn.simR zeroC epsC (fun d : Fin 256 => x0 (ix2 p d)) (fun (j : Fin 8192) (d : Fin 256) => x1 (ix2 j d)) l
            - Cert.Attn.maxR zeroC epsC ninfC (fun d : Fin 256 => x0 (ix2 p d)) (fun (j : Fin 8192) (d : Fin 256) => x1 (ix2 j d))) := by
  have e : ∀ l : Fin 8192, idx_main_v19 (idx_main_v20 (idx_main_v21 (ix2 p j))) l = ix2 p l := fun l =>
    funext fun a => Fin.ext (by match a with | ⟨0, _⟩ => rfl | ⟨1, _⟩ => rfl)
  rw [val_main_v21_apply, val_main_v20_apply, val_main_v19_apply, val_main_cst_3_apply]
  simp only [e, exp_eq, Ideal.ofBits_def]

/-- The reference program's result at (p, c) is the reference's arithmetic form of that output entry. -/
theorem ref_eq (x0 : (⟨S4096x256, .f32⟩ : BufTy).Contents (Elt Ideal)) (x1 x2 : (⟨S8192x256, .f32⟩ : BufTy).Contents (Elt Ideal))
    (p : Fin 4096) (c : Fin 256) :
    val_main_v23 (F := Ideal) x0 x1 x2 (ix2 p c)
      = Cert.Attn.outR (Ideal.ofBits .f32 0x00000000#32) (Ideal.ofBits .f32 0x322BCC77#32) (Ideal.ofBits .f32 0xFF800000#32)
          (fun d : Fin 256 => x0 (ix2 p d)) (fun (j : Fin 8192) (d : Fin 256) => x1 (ix2 j d)) (fun j : Fin 8192 => x2 (ix2 j c)) := by
  rw [val_main_v23_apply]
  unfold Cert.Attn.outR
  refine Finset.sum_congr rfl fun k _ => ?_
  have el : lidx_main_v23 (ix2 p c) k = ix2 p k :=
    funext fun a => Fin.ext (by match a with | ⟨0, _⟩ => rfl | ⟨1, _⟩ => rfl)
  have er : ridx_main_v23 (ix2 p c) k = ix2 k c :=
    funext fun a => Fin.ext (by match a with | ⟨0, _⟩ => rfl | ⟨1, _⟩ => rfl)
  rw [val_main_v22_apply, el, er, exp_eq, expsum_eq]
  simp only [Ideal.hostDivf_def]

end Cert.RefValue

end
-- ==== Proof.Pieces.lean ====
/-
  What each grid point of the kernel leaves behind, as values.

  The kernel's body has two shapes. At the first grid point it first fills its two resident buffers —
  the key rows, each scaled by the reciprocal of its norm, and the stored values unchanged — and then
  computes its output block from them. At every later point it only computes the output block, reading
  the resident buffers as the first point left them. Here each of these stores is read back as the body's
  pure arithmetic of what it loaded, and an induction over the grid points shows that after EVERY point
  the resident buffers hold the normalised keys and the values, and the output's staging block holds the
  body's arithmetic of that point's query block and those two buffers.
-/
import proofs.«108942_g75935021794080_cont_9to1_m_45_6_alg».proof.Proof.Gen.KernelIdeal.Value
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

/-- Every store and load of the body starts at the origin of its buffer. -/
theorem origin : (![0, 0] : Fin 2 → Nat) = fun _ => 0 := funext fun a => by fin_cases a <;> rfl

/-! ## The stores of one point, read back -/

/-- First point: the first resident buffer ends at the normalised key rows of the key block it loaded. -/
theorem keys_first (c : Dev nD) (i : grid0.Coords) (a1 : Memref sig .tc .vmem S256x256 .f32) (h1 : a1.IsWhole) (a2 : Memref sig .tc .vmem S8192x256 .f32) (h2 : a2.IsWhole) (a3 : Memref sig .tc .vmem S8192x256 .f32) (h3 : a3.IsWhole) (a4 : Memref sig .tc .vmem S256x256 .f32) (h4 : a4.IsWhole) (a5 : Memref sig .tc .vmem S8192x256 .bf16) (h5 : a5.IsWhole) (a6 : Memref sig .tc .vmem S8192x256 .bf16) (h6 : a6.IsWhole) (hc : cond0_0 i) (x0 : Vec F S256x256 .f32) (x1 x2 : Vec F S8192x256 .f32) :
    sout0_A_0 c i a1 h1 a2 h2 a3 h3 a4 h4 a5 h5 a6 h6 hc x0 x1 x2 = k0_pay1 x1 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_unit_zero origin]
  simp only [View.readAt_eq_ld, h2.read_unread, View.ld_unit_zero (S := S8192x256) origin]

/-- First point: the second resident buffer ends at the value block it loaded (only its format changes). -/
theorem vals_first (c : Dev nD) (i : grid0.Coords) (a1 : Memref sig .tc .vmem S256x256 .f32) (h1 : a1.IsWhole) (a2 : Memref sig .tc .vmem S8192x256 .f32) (h2 : a2.IsWhole) (a3 : Memref sig .tc .vmem S8192x256 .f32) (h3 : a3.IsWhole) (a4 : Memref sig .tc .vmem S256x256 .f32) (h4 : a4.IsWhole) (a5 : Memref sig .tc .vmem S8192x256 .bf16) (h5 : a5.IsWhole) (a6 : Memref sig .tc .vmem S8192x256 .bf16) (h6 : a6.IsWhole) (hc : cond0_0 i) (x0 : Vec F S256x256 .f32) (x1 x2 : Vec F S8192x256 .f32) :
    sout0_A_1 c i a1 h1 a2 h2 a3 h3 a4 h4 a5 h5 a6 h6 hc x0 x1 x2 = k0_pay2 x2 := by
  unfold sout0_A_1
  rw [View.read_writes_eq_canon _ _ _ (scover0_A_1 c i a1 h1 a2 h2 a3 h3 a4 h4 a5 h5 a6 h6 hc x0 x1 x2)]
  unfold kernelRun0_A
  dsimp only
  sl_unfold_words
  rw [View.canon_unit_zero origin]
  simp only [View.readAt_eq_ld, h3.read_unread, View.ld_unit_zero (S := S8192x256) origin]

/-- First point: the output block is the body's arithmetic of the query block and of the two resident
    buffers it has just filled (it reads them back after storing them). -/
theorem out_first (c : Dev nD) (i : grid0.Coords) (a1 : Memref sig .tc .vmem S256x256 .f32) (h1 : a1.IsWhole) (a2 : Memref sig .tc .vmem S8192x256 .f32) (h2 : a2.IsWhole) (a3 : Memref sig .tc .vmem S8192x256 .f32) (h3 : a3.IsWhole) (a4 : Memref sig .tc .vmem S256x256 .f32) (h4 : a4.IsWhole) (a5 : Memref sig .tc .vmem S8192x256 .bf16) (h5 : a5.IsWhole) (a6 : Memref sig .tc .vmem S8192x256 .bf16) (h6 : a6.IsWhole) (hc : cond0_0 i) (x0 : Vec F S256x256 .f32) (x1 x2 : Vec F S8192x256 .f32) :
    out0_A_3 c i a1 h1 a2 h2 a3 h3 a4 h4 a5 h5 a6 h6 hc x0 x1 x2 = k0_pay3 x0 (k0_pay1 x1) (k0_pay2 x2) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero origin]
  simp only [View.readAt_eq_ld, h1.read_unread, h2.read_unread, h3.read_unread, View.ld_unit_zero (S := S8192x256) origin,
    View.ld_unit_zero (S := S256x256) origin, View.readCov_unit_zero (S := S8192x256) _ origin]

/-- A later point: the output block is the body's arithmetic of the query block and of what the resident
    buffers held when the point began. -/
theorem out_later (c : Dev nD) (i : grid0.Coords) (a1 : Memref sig .tc .vmem S256x256 .f32) (h1 : a1.IsWhole) (a2 : Memref sig .tc .vmem S8192x256 .f32) (h2 : a2.IsWhole) (a3 : Memref sig .tc .vmem S8192x256 .f32) (h3 : a3.IsWhole) (a4 : Memref sig .tc .vmem S256x256 .f32) (h4 : a4.IsWhole) (a5 : Memref sig .tc .vmem S8192x256 .bf16) (h5 : a5.IsWhole) (a6 : Memref sig .tc .vmem S8192x256 .bf16) (h6 : a6.IsWhole) (hc : ¬cond0_0 i) (x0 : Vec F S256x256 .f32) (x1 x2 : Vec F S8192x256 .f32)
    (xs0 xs1 : Vec F S8192x256 .bf16) :
    out0_B_3 c i a1 h1 a2 h2 a3 h3 a4 h4 a5 h5 a6 h6 hc x0 x1 x2 xs0 xs1 = k0_pay3 x0 xs0 xs1 := by
  unfold out0_B_3
  rw [View.read_writes_eq_canon _ _ _ (cover0_B_3 c i a1 h1 a2 h2 a3 h3 a4 h4 a5 h5 a6 h6 hc x0 x1 x2 xs0 xs1)]
  unfold kernelRun0_B
  dsimp only
  sl_unfold_words
  rw [View.canon_unit_zero origin]
  simp only [View.readAt_eq_ld, h1.read_unread, h5.read_unread, h6.read_unread, View.ld_unit_zero (S := S8192x256) origin,
    View.ld_unit_zero (S := S256x256) origin]

/-! ## The blocks a point is handed -/

variable (m : (ℓ : Loc nD τ sig) → Buf (Elt F) ℓ)

/-- The query block of point `t`, the key array and the value array, at their literal types. -/
abbrev qblk (c : Dev nD) (t : Fin cfg0.N) : Vec F S256x256 .f32 := iblk m c 0 t
abbrev karr (c : Dev nD) : Vec F S8192x256 .f32 := V m c main_arg1
abbrev warr (c : Dev nD) : Vec F S8192x256 .f32 := V m c main_arg2

/-- The key and value windows never move: their block index is (0, 0) at every point. -/
theorem still : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- So the key block a point is handed is the whole key array, -/
theorem kblk_eq (c : Dev nD) (t : Fin cfg0.N) : (iblk m c 1 t : Vec F S8192x256 .f32) = karr m c := by
  obtain ⟨e0, e1, -, -⟩ := still t
  funext j
  unfold iblk
  rw [View.read_apply]
  show V m c main_arg1 _ = V m c main_arg1 j
  congr 1
  funext a; apply Fin.ext
  match a with
  | ⟨0, _⟩ => show win0_1.index t (0 : Fin 2) * 8192 + 1 * (j 0).val = (j 0).val; omega
  | ⟨1, _⟩ => show win0_1.index t (1 : Fin 2) * 256 + 1 * (j 1).val = (j 1).val; omega

/-- and the value block the whole value array. -/
theorem wblk_eq (c : Dev nD) (t : Fin cfg0.N) : (iblk m c 2 t : Vec F S8192x256 .f32) = warr m c := by
  obtain ⟨-, -, e0, e1⟩ := still t
  funext j
  unfold iblk
  rw [View.read_apply]
  show V m c main_arg2 _ = V m c main_arg2 j
  congr 1
  funext a; apply Fin.ext
  match a with
  | ⟨0, _⟩ => show win0_2.index t (0 : Fin 2) * 8192 + 1 * (j 0).val = (j 0).val; omega
  | ⟨1, _⟩ => show win0_2.index t (1 : Fin 2) * 256 + 1 * (j 1).val = (j 1).val; omega

/-! ## After every point -/

/-- After point `n`: the output block is the body's arithmetic of that point's query block, the normalised
    keys and the values; the two resident buffers hold the normalised keys and the values. By induction on
    the point: the first point fills the buffers, every later one leaves them alone. -/
theorem outsAt_eq (c : Dev nD) : ∀ (n : ℕ) (h : n < cfg0.N),
    outsAt0 m c n h
      = (k0_pay3 (qblk m c ⟨n, h⟩) (k0_pay1 (karr m c)) (k0_pay2 (warr m c)), k0_pay1 (karr m c), k0_pay2 (warr m c))
  | 0, h => by
    rw [outsAt0_A m c ⟨0, h⟩ rfl, out_first, keys_first, vals_first, kblk_eq, wblk_eq]
  | n + 1, h => by
    have hN : cfg0.N = 16 := N_0
    have hB : ¬(⟨n + 1, h⟩ : Fin cfg0.N).val % 16 = 0 := by dsimp only; omega
    have ih := outsAt_eq c n (Nat.lt_of_succ_lt h)
    rw [outsAt0_B m c ⟨n + 1, h⟩ hB, out_later]
    unfold sout0_B_0 sout0_B_1
    show (k0_pay3 _ (outsAt0 m c n _).2.1 (outsAt0 m c n _).2.2, (outsAt0 m c n _).2.1, (outsAt0 m c n _).2.2) = _
    rw [ih]

end Cert.KernelIdeal.Pieces

end
-- ==== Proof.KernelValue.lean ====
/-
  The kernel body's arithmetic, read at one entry of its output block, over the extended reals.

  The body normalises each query row and each key row by the reciprocal of its Euclidean norm plus ε,
  takes the inner products of the normalised rows, exponentiates them, and divides the
  exponential-weighted sum of the stored values by the sum of the exponentials. Read at row `r` and
  column `c` of the block this is exactly the kernel's form `Cert.Attn.outK` of row `r` of the query
  block, the key rows and column `c` of the values. A change of float format is the identity here, and a
  matrix product into a zero accumulator is the plain sum of products over the contracted coordinate.
-/
import proofs.«108942_g75935021794080_cont_9to1_m_45_6_alg».proof.Proof.Attn
import proofs.«108942_g75935021794080_cont_9to1_m_45_6_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-- ε and one, as the body writes them. -/
abbrev EPS : EReal := Ideal.ofBits .f32 0x322BCC77#32
abbrev ONE : EReal := Ideal.ofBits .f32 0x3F800000#32

/-! ## Layout steps at an index -/

variable {α : Type}

/-- A vector cast to a one-column matrix reads, at `(r, 0)`, the vector at `r`. -/
theorem colCast_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A one-column matrix repeated along the rows reads, at `(r, c)`, the column at `r`. -/
theorem colBcast_apply {n d : ℕ} (v : (⟨2, ![n, 1]⟩ : Shape).Idx → α) (h : (⟨2, ![n, 1]⟩ : Shape).Broadcasts ⟨2, ![n, d]⟩)
    (r : Fin n) (c : Fin d) : broadcastTo ⟨2, ![n, d]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ =>
    show 0 = if (1 : ℕ) = 1 then 0 else c.val
    rw [if_pos rfl]

/-- A sum along the rows of a matrix reads, at `r`, the sum of row `r`'s entries. -/
theorem rowSum_apply {n d : ℕ} (x : FVec Ideal ⟨2, ![n, d]⟩ .f32) (h : (⟨2, ![n, d]⟩ : Shape).Reduces [1] ⟨1, ![n]⟩)
    (hφ : FKind.Formats .f32) (hacc : (0x00000000#32 : BitVec (FTy.bits .f32)) = FKind.add.neutral .f32 hφ) (r : Fin n) :
    multiReduction .add [1] ⟨1, ![n]⟩ x 0x00000000#32 h hφ hacc (ix1 r) = ∑ k : Fin d, x (ix2 r k) :=
  (Ideal.multiReduction_add_single x _ h hφ hacc (ix1 r)).trans
    (Finset.sum_congr rfl fun k _ => congrArg x (by funext a; apply Fin.ext; fin_cases a <;> rfl))

/-- The zero word a sum starts from is the neutral element of addition, at the type the reduction asks for. -/
theorem zacc : (0x00000000#32 : BitVec (FTy.bits .f32)) = FKind.add.neutral .f32 (.inl rfl) := rfl

/-! ## The normaliser -/

/-- The reciprocal of each row's Euclidean norm plus ε, repeated along the row. -/
def recipNorm {n d : ℕ} (x : FVec Ideal ⟨2, ![n, d]⟩ .f32)
    (hred : (⟨2, ![n, d]⟩ : Shape).Reduces [1] ⟨1, ![n]⟩) (hφ : FKind.Formats .f32)
    (hacc : (0x00000000#32 : BitVec (FTy.bits .f32)) = FKind.add.neutral .f32 hφ)
    (hcast : (⟨1, ![n]⟩ : Shape).ShapeCasts ⟨2, ![n, 1]⟩) (hb : (⟨2, ![n, 1]⟩ : Shape).Broadcasts ⟨2, ![n, d]⟩) :
    FVec Ideal ⟨2, ![n, d]⟩ .f32 :=
  broadcastTo ⟨2, ![n, d]⟩
    (divf (broadcast ⟨2, ![n, 1]⟩ (Scalar.ofBits (F := Ideal) .f32 0x3F800000#32))
      (addf (sqrt (shapeCast ⟨2, ![n, 1]⟩ (multiReduction .add [1] ⟨1, ![n]⟩ (mulf x x) 0x00000000#32 hred hφ hacc) hcast))
        (broadcast ⟨2, ![n, 1]⟩ (Scalar.ofBits (F := Ideal) .f32 0x322BCC77#32)))) hb

theorem recipNorm_apply {n d : ℕ} (x : FVec Ideal ⟨2, ![n, d]⟩ .f32)
    (hred : (⟨2, ![n, d]⟩ : Shape).Reduces [1] ⟨1, ![n]⟩) (hφ : FKind.Formats .f32)
    (hacc : (0x00000000#32 : BitVec (FTy.bits .f32)) = FKind.add.neutral .f32 hφ)
    (hcast : (⟨1, ![n]⟩ : Shape).ShapeCasts ⟨2, ![n, 1]⟩) (hb : (⟨2, ![n, 1]⟩ : Shape).Broadcasts ⟨2, ![n, d]⟩)
    (r : Fin n) (c : Fin d) :
    recipNorm x hred hφ hacc hcast hb (ix2 r c) = Ideal.div ONE (Ideal.sqrt (∑ k : Fin d, x (ix2 r k) * x (ix2 r k)) + EPS) := by
  unfold recipNorm
  refine (colBcast_apply _ hb r c).trans ?_
  show Ideal.div ONE (Ideal.sqrt (shapeCast ⟨2, ![n, 1]⟩ (multiReduction .add [1] ⟨1, ![n]⟩ (mulf x x) 0x00000000#32 hred hφ hacc) hcast (ix2 r (0 : Fin 1))) + EPS) = _
  rw [colCast_apply, rowSum_apply]
  rfl

/-! ## The two matrix products -/

theorem simL_0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
theorem simL_1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
theorem simR_0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
theorem simR_1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- The product of the query block with the transposed keys, into zero: at `(r, j)` the inner product of query
    row `r` and key row `j`. -/
theorem sim_matmul (a : FVec Ideal S256x256 .bf16) (b : FVec Ideal S8192x256 .bf16) (r : Fin 256) (j : Fin 8192) :
    matmul dot_S256x256_S8192x256_S256x8192_1_1_0_0_n_n none a b (constant S256x8192 .f32 0x00000000#32) (ix2 r j)
      = ∑ d : Fin 256, a (ix2 r d) * b (ix2 j d) := by
  simp only [matmul]
  rw [Ideal.matmul_constant_zero_apply, ← Equiv.sum_comp (ValueIdx.contrEquiv1 dot_S256x256_S8192x256_S256x8192_1_1_0_0_n_n 256 rfl rfl).symm]
  refine Finset.sum_congr rfl fun k _ => ?_
  have hk := ValueIdx.contrEquiv1_symm_val dot_S256x256_S8192x256_S256x8192_1_1_0_0_n_n 256 rfl rfl k
  have el : dot_S256x256_S8192x256_S256x8192_1_1_0_0_n_n.lhsIdx (ix2 r j) ((ValueIdx.contrEquiv1 dot_S256x256_S8192x256_S256x8192_1_1_0_0_n_n 256 rfl rfl).symm k) = ix2 r k := funext fun ax => Fin.ext (by
    match ax with
    | ⟨0, _⟩ => exact simL_0 _ _
    | ⟨1, _⟩ => exact (simL_1 _ _).trans hk)
  have er : dot_S256x256_S8192x256_S256x8192_1_1_0_0_n_n.rhsIdx (ix2 r j) ((ValueIdx.contrEquiv1 dot_S256x256_S8192x256_S256x8192_1_1_0_0_n_n 256 rfl rfl).symm k) = ix2 j k := funext fun ax => Fin.ext (by
    match ax with
    | ⟨0, _⟩ => exact simR_0 _ _
    | ⟨1, _⟩ => exact (simR_1 _ _).trans hk)
  rw [el, er]

theorem accL_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem accL_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem accR_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem accR_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- The product of the weights with the values, into zero: at `(r, c)` the sum over the slots of weight times value. -/
theorem acc_matmul (a : FVec Ideal S256x8192 .bf16) (b : FVec Ideal S8192x256 .bf16) (r c : Fin 256) :
    matmul dot_S256x8192_S8192x256_S256x256_1_0_0_1_n_n none a b (constant S256x256 .f32 0x00000000#32) (ix2 r c)
      = ∑ j : Fin 8192, a (ix2 r j) * b (ix2 j c) := by
  simp only [matmul]
  rw [Ideal.matmul_constant_zero_apply, ← Equiv.sum_comp (ValueIdx.contrEquiv1 dot_S256x8192_S8192x256_S256x256_1_0_0_1_n_n 8192 rfl rfl).symm]
  refine Finset.sum_congr rfl fun k _ => ?_
  have hk := ValueIdx.contrEquiv1_symm_val dot_S256x8192_S8192x256_S256x256_1_0_0_1_n_n 8192 rfl rfl k
  have el : dot_S256x8192_S8192x256_S256x256_1_0_0_1_n_n.lhsIdx (ix2 r c) ((ValueIdx.contrEquiv1 dot_S256x8192_S8192x256_S256x256_1_0_0_1_n_n 8192 rfl rfl).symm k) = ix2 r k := funext fun ax => Fin.ext (by
    match ax with
    | ⟨0, _⟩ => exact accL_0 _ _
    | ⟨1, _⟩ => exact (accL_1 _ _).trans hk)
  have er : dot_S256x8192_S8192x256_S256x256_1_0_0_1_n_n.rhsIdx (ix2 r c) ((ValueIdx.contrEquiv1 dot_S256x8192_S8192x256_S256x256_1_0_0_1_n_n 8192 rfl rfl).symm k) = ix2 k c := funext fun ax => Fin.ext (by
    match ax with
    | ⟨0, _⟩ => exact (accR_0 _ _).trans hk
    | ⟨1, _⟩ => exact accR_1 _ _)
  rw [el, er]

/-! ## The body's three stores -/

/-- The first resident buffer: each key row times the reciprocal of its norm plus ε. -/
theorem keys_apply (K : FVec Ideal S8192x256 .f32) (j : Fin 8192) (d : Fin 256) :
    k0_pay1 (F := Ideal) K (ix2 j d)
      = K (ix2 j d) * Ideal.div ONE (Ideal.sqrt (∑ d' : Fin 256, K (ix2 j d') * K (ix2 j d')) + EPS) := by
  unfold k0_pay1
  dsimp only
  rw [shapeCast_self]
  exact congrArg (K (ix2 j d) * ·)
    (recipNorm_apply K Gen.reduces_S8192x256_S8192 (.inl rfl) rfl Gen.shapeCasts_S8192_S8192x1 Gen.broadcasts_S8192x1_S8192x256 j d)

/-- The second resident buffer: the values, unchanged. -/
theorem vals_eq (W : FVec Ideal S8192x256 .f32) : k0_pay2 (F := Ideal) W = W := by
  unfold k0_pay2
  dsimp only
  rw [shapeCast_self]
  rfl

/-- The similarities the body computes from a query block and the normalised keys. -/
def simBlock (x0 : FVec Ideal S256x256 .f32) (kn : FVec Ideal S8192x256 .bf16) : FVec Ideal S256x8192 .f32 :=
  matmul dot_S256x256_S8192x256_S256x8192_1_1_0_0_n_n none
    (truncf .bf16 (mulf x0 (recipNorm x0 Gen.reduces_S256x256_S256 (.inl rfl) zacc Gen.shapeCasts_S256_S256x1 Gen.broadcasts_S256x1_S256x256)) Gen.bitsLt_bf16_f32)
    kn (constant S256x8192 .f32 0x00000000#32)

theorem simBlock_apply (x0 : FVec Ideal S256x256 .f32) (K : FVec Ideal S8192x256 .f32) (r : Fin 256) (j : Fin 8192) :
    simBlock x0 (k0_pay1 (F := Ideal) K) (ix2 r j)
      = Cert.Attn.simK ONE EPS (fun d : Fin 256 => x0 (ix2 r d)) (fun (j : Fin 8192) (d : Fin 256) => K (ix2 j d)) j := by
  unfold simBlock Cert.Attn.simK
  refine (sim_matmul _ _ r j).trans (Finset.sum_congr rfl fun d _ => ?_)
  show x0 (ix2 r d) * recipNorm x0 Gen.reduces_S256x256_S256 (.inl rfl) zacc Gen.shapeCasts_S256_S256x1 Gen.broadcasts_S256x1_S256x256 (ix2 r d)
      * k0_pay1 (F := Ideal) K (ix2 j d) = _
  rw [recipNorm_apply, keys_apply]

/-- The body's output block at `(r, c)`: the kernel's form of row `r` of the query block, the key rows and column
    `c` of the values. -/
theorem out_apply (x0 : FVec Ideal S256x256 .f32) (K W : FVec Ideal S8192x256 .f32) (r c : Fin 256) :
    k0_pay3 (F := Ideal) x0 (k0_pay1 (F := Ideal) K) (k0_pay2 (F := Ideal) W) (ix2 r c)
      = Cert.Attn.outK ONE EPS (fun d : Fin 256 => x0 (ix2 r d)) (fun (j : Fin 8192) (d : Fin 256) => K (ix2 j d))
          (fun j : Fin 8192 => W (ix2 j c)) := by
  unfold k0_pay3 Cert.Attn.outK
  show Ideal.div
      (matmul dot_S256x8192_S8192x256_S256x256_1_0_0_1_n_n none (truncf .bf16 (exp (simBlock x0 (k0_pay1 (F := Ideal) K))) Gen.bitsLt_bf16_f32) (k0_pay2 (F := Ideal) W)
        (constant S256x256 .f32 0x00000000#32) (ix2 r c))
      (broadcastTo S256x256 (shapeCast S256x1
        (multiReduction .add [1] S256 (exp (simBlock x0 (k0_pay1 (F := Ideal) K))) 0x00000000#32 Gen.reduces_S256x8192_S256 (.inl rfl) zacc)
        Gen.shapeCasts_S256_S256x1) Gen.broadcasts_S256x1_S256x256 (ix2 r c)) = _
  rw [acc_matmul, colBcast_apply, colCast_apply]
  refine congrArg₂ Ideal.div (Finset.sum_congr rfl fun j _ => ?_) ?_
  · show Ideal.exp (simBlock x0 (k0_pay1 (F := Ideal) K) (ix2 r j)) * k0_pay2 (F := Ideal) W (ix2 j c) = _
    rw [simBlock_apply, vals_eq]
  · refine (rowSum_apply _ Gen.reduces_S256x8192_S256 (.inl rfl) zacc r).trans (Finset.sum_congr rfl fun j _ => ?_)
    show Ideal.exp (simBlock x0 (k0_pay1 (F := Ideal) K) (ix2 r j)) = _
    rw [simBlock_apply]

/-- The same at an index of the block given whole. -/
theorem out_apply_idx (x0 : FVec Ideal S256x256 .f32) (K W : FVec Ideal S8192x256 .f32) (y : S256x256.Idx) :
    k0_pay3 (F := Ideal) x0 (k0_pay1 (F := Ideal) K) (k0_pay2 (F := Ideal) W) y
      = Cert.Attn.outK ONE EPS (fun d : Fin 256 => x0 (ix2 (y 0) d)) (fun (j : Fin 8192) (d : Fin 256) => K (ix2 j d))
          (fun j : Fin 8192 => W (ix2 j (y 1))) := by
  exact (congrArg (k0_pay3 (F := Ideal) x0 (k0_pay1 (F := Ideal) K) (k0_pay2 (F := Ideal) W)) (eq_ix2 y)).trans
    (out_apply x0 K W (y 0) (y 1))

end Cert.KernelIdeal.PayValue

end
-- ==== Proof.KernelRun.lean ====
/-
  The kernel's result array as one function of its three argument arrays.

  Grid point `t` writes back rows `256·t … 256·t + 255` of the result. Its query block is those same rows of
  the query array, and the key and value windows are the whole key and value arrays at every point; so what
  point `t` writes at row `r`, column `c` of its block is the kernel's form of query row `256·t + r`, the key rows
  and value column `c` — the same whole-array function `rowAttn` read through the block. The sixteen blocks
  tile the array (row `i` lies in block `i / 256`), so the array ends at `rowAttn` everywhere.
-/
import proofs.«108942_g75935021794080_cont_9to1_m_45_6_alg».proof.Proof.Pieces
import proofs.«108942_g75935021794080_cont_9to1_m_45_6_alg».proof.Proof.KernelValue

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.KernelIdeal.PayValue Cert.KernelIdeal.Pieces
open Idealize.ShloMosaic.Pipeline (Dat)

variable (m : (ℓ : Loc nD τ sig) → Buf (Elt Ideal) ℓ) (ρ : Dev nD → PrngReg)

/-- Entry `(p, c)` of the result: the kernel's form of query row `p`, the key rows and value column `c`. -/
def rowAttn (Q : FVec Ideal S4096x256 .f32) (K W : FVec Ideal S8192x256 .f32) : FVec Ideal S4096x256 .f32 := fun i =>
  Cert.Attn.outK ONE EPS (fun d : Fin 256 => Q (ix2 (i 0) d)) (fun (j : Fin 8192) (d : Fin 256) => K (ix2 j d))
    (fun j : Fin 8192 => W (ix2 j (i 1)))

/-- The query window and the result window move together down the rows and never along the columns. -/
theorem moves : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

/-- What point `t` writes back is block `t` of `rowAttn` of the argument arrays. -/
theorem flushed_eq (c : Dev nD) (t : Fin cfg0.N) :
    (dats m 0 c).flushed 3 t
      = ((cfg0.win 3).blk t).view.read (Elt Ideal) (rowAttn (V m c main_arg0) (karr m c) (warr m c)) := by
  obtain ⟨e0, e1, e2, e3⟩ := moves t
  rw [Cert.KernelIdeal.Value.flushed3, outsAt_eq]
  funext y
  show k0_pay3 (F := Ideal) (qblk m c t) (k0_pay1 (F := Ideal) (karr m c)) (k0_pay2 (F := Ideal) (warr m c)) y
      = rowAttn (V m c main_arg0) (karr m c) (warr m c) (((cfg0.win 3).blk t).view.emb y)
  refine (out_apply_idx _ _ _ y).trans ?_
  unfold rowAttn
  have hq : (fun d : Fin 256 => qblk m c t (ix2 (y 0) d))
      = fun d : Fin 256 => V m c main_arg0 (ix2 ((((cfg0.win 3).blk t).view.emb y) 0) d) := funext fun d => by
    show V m c main_arg0 (((cfg0.win 0).blk t).view.emb (ix2 (y 0) d)) = _
    congr 1
    funext a; apply Fin.ext
    match a with
    | ⟨0, _⟩ => show win0_0.index t (0 : Fin 2) * 256 + 1 * (y 0).val = win0_3.index t (0 : Fin 2) * 256 + 1 * (y 0).val; omega
    | ⟨1, _⟩ => show win0_0.index t (1 : Fin 2) * 256 + 1 * d.val = d.val; omega
  have hw : (fun j : Fin 8192 => warr m c (ix2 j (y 1)))
      = fun j : Fin 8192 => warr m c (ix2 j ((((cfg0.win 3).blk t).view.emb y) 1)) := funext fun j => by
    congr 1
    funext a; apply Fin.ext
    match a with
    | ⟨0, _⟩ => rfl
    | ⟨1, _⟩ => show (y 1).val = win0_3.index t (1 : Fin 2) * 256 + 1 * (y 1).val; omega
  rw [hq, hw]

/-- An index of the result array is in point `t`'s block iff its row is among the block's 256 rows. -/
theorem mem_blk (t : Fin cfg0.N) (i : S4096x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v0).slice (win0_3.rect t)).set ↔ _
  rw [View.set_slice_whole, Rect.mem_set_unit]
  exact Iff.rfl

/-- So the result array ends at `rowAttn` of the argument arrays. -/
theorem final (c : Dev nD) :
    (dats m 0 c).arrAt 3 cfg0.N = rowAttn (V m c main_arg0) (karr m c) (warr m c) :=
  (dats m 0 c).arrAt_eq_of_cover 3 _ (fun t _ => flushed_eq m c t) fun i => by
    have hN : cfg0.N = 16 := N_0
    have hi0 : (i 0).val < 4096 := (i 0).isLt
    have hi1 : (i 1).val < 256 := (i 1).isLt
    let t : Fin cfg0.N := ⟨(i 0).val / 256, by omega⟩
    obtain ⟨-, -, e2, e3⟩ := moves t
    refine ⟨t, flush0_3 t, ?_⟩
    rw [mem_blk]
    intro a
    match a with
    | ⟨0, _⟩ =>
      show win0_3.index t (0 : Fin 2) * 256 ≤ (i 0).val ∧ (i 0).val < win0_3.index t (0 : Fin 2) * 256 + 256
      have ht : t.val = (i 0).val / 256 := rfl
      omega
    | ⟨1, _⟩ =>
      show win0_3.index t (1 : Fin 2) * 256 ≤ (i 1).val ∧ (i 1).val < win0_3.index t (1 : Fin 2) * 256 + 256
      omega

/-- The kernel's run, read: the result array at `rowAttn` of the launch contents of the arguments, the arguments
    unchanged. -/
theorem run : θ_run defs (onTc (τ := τ) (main (F := Ideal))) ⟨m, fun _ => 0, ρ⟩ fun r => ∀ c : Dev nD,
      r.2.mem ((c : Thread nD τ).loc main_v0)
        = rowAttn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Result

end
-- ==== Proof.lean ====
/-
  A one-pass softmax retrieval against its textbook reference, over the extended reals.

  Both programs normalise the query rows and the key rows by their Euclidean norm plus a small ε, take the
  inner products, and return the softmax-weighted average of the stored values. The kernel multiplies by
  the reciprocal of the norm, exponentiates the similarities as they are, and divides the weighted sum by
  the sum of the exponentials once; the reference divides by the norm, subtracts each row's maximum before
  exponentiating, divides every exponential by their sum and then takes the weighted sum. On finite inputs
  every intermediate value is a real number, the row maximum is a real number `m`, `exp (s − m) = exp s / exp m`
  and the common factor `exp m` cancels: the two are the same function (`Cert.Attn.outK_eq_outR`). That law
  needs the inputs finite, which is what the precondition says (`Cert.FiniteInputs.real_of_pre`).

  The kernel's result array is read off its run in Pieces, KernelValue and KernelRun (`Result.run`); the
  reference's in RefValue (`Cert.RefValue.ref_eq`); no operation of the kernel was rewritten for the ideal
  reading, so there is nothing to preserve beyond that reading itself.
-/
import proofs.«108942_g75935021794080_cont_9to1_m_45_6_alg».proof.Defs
import proofs.«108942_g75935021794080_cont_9to1_m_45_6_alg».proof.Proof.Gen.Kernel
import proofs.«108942_g75935021794080_cont_9to1_m_45_6_alg».proof.Proof.Gen.Kernel.Skeleton
import proofs.«108942_g75935021794080_cont_9to1_m_45_6_alg».proof.Proof.Gen.Kernel.Launch
import proofs.«108942_g75935021794080_cont_9to1_m_45_6_alg».proof.Proof.Gen.Kernel.Points
import proofs.«108942_g75935021794080_cont_9to1_m_45_6_alg».proof.Proof.Gen.Kernel.Frame
import proofs.«108942_g75935021794080_cont_9to1_m_45_6_alg».proof.Proof.Gen.KernelIdeal
import proofs.«108942_g75935021794080_cont_9to1_m_45_6_alg».proof.Proof.Gen.KernelIdeal.Skeleton
import proofs.«108942_g75935021794080_cont_9to1_m_45_6_alg».proof.Proof.Gen.KernelIdeal.Launch
import proofs.«108942_g75935021794080_cont_9to1_m_45_6_alg».proof.Proof.Gen.KernelIdeal.Points
import proofs.«108942_g75935021794080_cont_9to1_m_45_6_alg».proof.Proof.Gen.KernelIdeal.Frame
import proofs.«108942_g75935021794080_cont_9to1_m_45_6_alg».proof.Proof.Gen.ReferenceIdeal
import proofs.«108942_g75935021794080_cont_9to1_m_45_6_alg».proof.Proof.Gen.Pre_finite_inputs
import proofs.«108942_g75935021794080_cont_9to1_m_45_6_alg».proof.Proof.Gen.KernelIdeal.Value
import proofs.«108942_g75935021794080_cont_9to1_m_45_6_alg».proof.Proof.Gen.ReferenceIdeal.Run
import proofs.«108942_g75935021794080_cont_9to1_m_45_6_alg».proof.Proof.Gen.ReferenceIdeal.Read
import proofs.«108942_g75935021794080_cont_9to1_m_45_6_alg».proof.Proof.SoftmaxLaw
import proofs.«108942_g75935021794080_cont_9to1_m_45_6_alg».proof.Proof.FiniteInputs
import proofs.«108942_g75935021794080_cont_9to1_m_45_6_alg».proof.Proof.RefValue
import proofs.«108942_g75935021794080_cont_9to1_m_45_6_alg».proof.Proof.KernelRun
import Idealize.ShloMosaic.Lib.IdealHost
import Idealize.ShloMosaic.Adequacy
import Idealize.ShloMosaic.Init

noncomputable section

namespace Cert.Proof

open Idealize.ShloMosaic Idealize.ShloMosaic.TcCoe Idealize.SL.Sem Idealize.ShloMosaic.ValueIdx

/-- On arrays of real numbers the kernel's whole-array function is the reference's last stage, entry by entry:
    the reference read at `(p, c)` is its form `outR`, the kernel's function there is `outK` of the same rows,
    and the two forms agree on reals. -/
theorem result_eq (Q : FVec Ideal Cert.KernelIdeal.S4096x256 .f32) (K W : FVec Ideal Cert.KernelIdeal.S8192x256 .f32)
    (hQ : ∀ i, ∃ r : ℝ, Q i = (r : EReal)) (hK : ∀ i, ∃ r : ℝ, K i = (r : EReal)) (hW : ∀ i, ∃ r : ℝ, W i = (r : EReal)) :
    Cert.ReferenceIdeal.Read.val_main_v23 (F := Ideal) Q K W = Cert.KernelIdeal.Result.rowAttn Q K W := by
  choose q hq using hQ
  choose k hk using hK
  choose w hw using hW
  obtain ⟨e, he, heps⟩ := Cert.Attn.eps_pos
  funext i
  obtain ⟨p, c, rfl⟩ : ∃ (p : Fin 4096) (c : Fin 256), i = ix2 p c := ⟨i 0, i 1, eq_ix2 i⟩
  rw [Cert.RefValue.ref_eq]
  unfold Cert.KernelIdeal.Result.rowAttn
  have e1 : (fun d : Fin 256 => Q (ix2 p d)) = fun d : Fin 256 => ((q (ix2 p d) : ℝ) : EReal) := funext fun d => hq _
  have e2 : (fun (j : Fin 8192) (d : Fin 256) => K (ix2 j d)) = fun (j : Fin 8192) (d : Fin 256) => ((k (ix2 j d) : ℝ) : EReal) :=
    funext fun j => funext fun d => hk _
  have e3 : (fun j : Fin 8192 => W (ix2 j c)) = fun j : Fin 8192 => ((w (ix2 j c) : ℝ) : EReal) := funext fun j => hw _
  show _ = Cert.Attn.outK _ _ (fun d : Fin 256 => Q (ix2 p d)) (fun (j : Fin 8192) (d : Fin 256) => K (ix2 j d)) (fun j : Fin 8192 => W (ix2 j c))
  rw [e1, e2, e3]
  exact (Cert.Attn.outK_eq_outR he heps Ideal.ofBits_one_f32 Ideal.ofBits_zero_f32 Cert.Attn.ninf_eq
    (fun d : Fin 256 => q (ix2 p d)) (fun (j : Fin 8192) (d : Fin 256) => k (ix2 j d)) (fun j : Fin 8192 => w (ix2 j c))).symm

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both idealised programs end with the result array at the kernel's whole-array function of the (agreeing,
    finite) arguments. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.FiniteInputs.real_of_pre _ _ _ (hpre c)
  rw [Cert.ReferenceIdeal.Read.val_main_v23_eq, (hagree c).1, (hagree c).2.1, (hagree c).2.2]
  exact result_eq _ _ _ h0 h1 h2

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
